-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  main_v18

def fn {F : FTy → Type} [FloatOps F] (main_arg0 : FVec F S500000x2 .f32) (main_arg1 : IVec S2x16000000 32) (main_arg2 : FVec F S2x2 .f32) (main_arg3 : FVec F S2 .f32) (main_arg4 : FVec F S2x2 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S2x2 .f32 := Host.absf main_arg2
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg4
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_v13 main_v16
-- ==== Kernel.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S1x2 : Shape := ⟨2, ![1, 2]⟩
abbrev S5000x2 : Shape := ⟨2, ![5000, 2]⟩
abbrev S5000x1 : Shape := ⟨2, ![5000, 1]⟩
abbrev S2x1 : Shape := ⟨2, ![2, 1]⟩

abbrev nBuf : Space → Nat
  | .hbm => 24
  | .vmem => 9
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S2x2, .f32⟩
  | .hbm, ⟨3, _⟩ => ⟨S2, .f32⟩
  | .hbm, ⟨4, _⟩ => ⟨S2x2, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S16000000x2, .f32⟩
  | .hbm, ⟨18, _⟩ => ⟨S_, .f32⟩
  | .hbm, ⟨19, _⟩ => ⟨S500000x2, .f32⟩
  | .hbm, ⟨20, _⟩ => ⟨S16000000x1, .i32⟩
  | .hbm, ⟨21, _⟩ => ⟨S500000x2, .f32⟩
  | .hbm, ⟨22, _⟩ => ⟨S1x2, .f32⟩
  | .hbm, ⟨23, _⟩ => ⟨S500000x2, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x2, .f32⟩
  | .local _ .vmem, ⟨5, _⟩ => ⟨S1x2, .f32⟩
  | .local _ .vmem, ⟨6, _⟩ => ⟨S2x2, .f32⟩
  | .local _ .vmem, ⟨7, _⟩ => ⟨S5000x2, .f32⟩
  | .local _ .vmem, ⟨8, _⟩ => ⟨S5000x2, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x2 : S_.BroadcastsInDim S500000x2 (![] : Fin 0 → Fin S500000x2.rank)
  shapeCasts_S2_S1x2 : S2.ShapeCasts S1x2
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S2x2_S2x2_0_0 : ∀ a, (![0, 0] : Fin 2 → Nat) a + S2x2.size a ≤ S2x2.size a
  h_S2x2 : 0 < S2x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S5000x2_o0_0_S5000x1 : S5000x2.Slices ![0, 0] S5000x1
  slices_S2x2_o0_0_S2x1 : S2x2.Slices ![0, 0] S2x1
  shapeCasts_S2x1_S2 : S2x1.ShapeCasts S2
  broadcasts_S5000x1_S5000x2 : S5000x1.Broadcasts S5000x2
  broadcasts_S1x2_S5000x2 : S1x2.Broadcasts S5000x2
  slices_S5000x2_o0_1_S5000x1 : S5000x2.Slices ![0, 1] S5000x1
  slices_S2x2_o0_1_S2x1 : S2x2.Slices ![0, 1] S2x1
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S500000x2.size a
  hwx0_0 : ∀ i : grid0.Coords, EltTy.bits .f32 = 32 ∨ (Rect.block (s := S500000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S500000x2.size a
  hwx0_1 : ∀ i : grid0.Coords, EltTy.bits .f32 = 32 ∨ (Rect.block (s := S500000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2.size a ≤ S2x2.size a
  hwx0_2 : ∀ i : grid0.Coords, EltTy.bits .f32 = 32 ∨ (Rect.block (s := S2x2) S2x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2.size a ≤ S2x2.size a
  hwx0_4 : ∀ i : grid0.Coords, EltTy.bits .f32 = 32 ∨ (Rect.block (s := S2x2) S2x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x2.size a ≤ S500000x2.size a
  hwx0_5 : ∀ i : grid0.Coords, EltTy.bits .f32 = 32 ∨ (Rect.block (s := S500000x2) S5000x2.size (cc0_transform_5 i) (hinb0_5 i)).WholeWords (EltTy.packing .f32)

variable [Facts₀]

def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf

abbrev win0_0 : Pipeline.Window sig grid0 :=
  Pipeline.Window.ofSpec (Memref.whole main_v13) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S1x2 : Shape := ⟨2, ![1, 2]⟩

abbrev nBuf : Space → Nat
  | .hbm => 30
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S2x2, .f32⟩
  | .hbm, ⟨3, _⟩ => ⟨S2, .f32⟩
  | .hbm, ⟨4, _⟩ => ⟨S2x2, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S16000000x2, .f32⟩
  | .hbm, ⟨18, _⟩ => ⟨S_, .f32⟩
  | .hbm, ⟨19, _⟩ => ⟨S500000x2, .f32⟩
  | .hbm, ⟨20, _⟩ => ⟨S16000000x1, .i32⟩
  | .hbm, ⟨21, _⟩ => ⟨S500000x2, .f32⟩
  | .hbm, ⟨22, _⟩ => ⟨S2x2, .f32⟩
  | .hbm, ⟨23, _⟩ => ⟨S500000x2, .f32⟩
  | .hbm, ⟨24, _⟩ => ⟨S1x2, .f32⟩
  | .hbm, ⟨25, _⟩ => ⟨S500000x2, .f32⟩
  | .hbm, ⟨26, _⟩ => ⟨S500000x2, .f32⟩
  | .hbm, ⟨27, _⟩ => ⟨S2x2, .f32⟩
  | .hbm, ⟨28, _⟩ => ⟨S500000x2, .f32⟩
  | .hbm, ⟨29, _⟩ => ⟨S500000x2, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x2 : S_.BroadcastsInDim S500000x2 (![] : Fin 0 → Fin S500000x2.rank)
  transposes_S2x2_S2x2_1_0 : S2x2.Transposes [1, 0] S2x2
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  dot_S500000x2_S2x2_S500000x2_1_0_0_1_n_n_wf : DotDims.WF S500000x2 S2x2 S500000x2 [1] [0] [0] [1] [] []

variable [Facts₀]

def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def dot_S500000x2_S2x2_S500000x2_1_0_0_1_n_n : DotDims S500000x2 S2x2 S500000x2 where
  lhsContracting := [1]
  rhsContracting := [0]
  lhsNonContracting := [0]
  rhsNonContracting := [1]
  lhsBatch := []
  rhsBatch := []
  wf := dot_S500000x2_S2x2_S500000x2_1_0_0_1_n_n_wf

class Facts : Prop extends Facts₀ where

variable [Facts]
-- ==== Proof.NodeCombine.lean ====
/-
  The per-node combine of a graph convolution with sum aggregation, as ONE function of its arrays.

  With `a` the neighbour sums (one row of two features per node), `x` the node features, `wr`, `wo` the two 2×2
  weight matrices and `b` the bias, the result at node `r`, output feature `j` is

      out r j = (a r 0 · wr j 0 + a r 1 · wr j 1) + b j + (x r 0 · wo j 0 + x r 1 · wo j 1),

  that is `a · wrᵀ + b + x · woᵀ` written out over the two input features.  It is stated on the extended reals; only
  commutativity and associativity of the sum and `0 + y = y` are ever used on it, so no finiteness is asked of anything.
-/
import Idealize.ShloMosaic.PureOps.Ideal
import Idealize.ShloMosaic.Lib.ValueIdx

noncomputable section

open Idealize.ShloMosaic Idealize.ShloMosaic.ValueIdx

namespace GraphConv

/-- The combine at node `r`, output feature `j`: both 2×2 maps written out over the two input features. -/
def combineAt {n : Nat} (a x : FVec Ideal ⟨2, ![n, 2]⟩ .f32) (wr : FVec Ideal ⟨2, ![2, 2]⟩ .f32) (b : FVec Ideal ⟨1, ![2]⟩ .f32)
    (wo : FVec Ideal ⟨2, ![2, 2]⟩ .f32) (r : Fin n) (j : Fin 2) : EReal :=
  (a (ix2 r 0) * wr (ix2 j 0) + a (ix2 r 1) * wr (ix2 j 1)) + b (ix1 j)
    + (x (ix2 r 0) * wo (ix2 j 0) + x (ix2 r 1) * wo (ix2 j 1))

/-- The combine as a whole array of `n` nodes. -/
def combine {n : Nat} (a x : FVec Ideal ⟨2, ![n, 2]⟩ .f32) (wr : FVec Ideal ⟨2, ![2, 2]⟩ .f32) (b : FVec Ideal ⟨1, ![2]⟩ .f32)
    (wo : FVec Ideal ⟨2, ![2, 2]⟩ .f32) : FVec Ideal ⟨2, ![n, 2]⟩ .f32 :=
  fun i => combineAt a x wr b wo (i 0) (i 1)

/-- The array read at an explicit node and feature. -/
theorem combine_apply {n : Nat} (a x : FVec Ideal ⟨2, ![n, 2]⟩ .f32) (wr : FVec Ideal ⟨2, ![2, 2]⟩ .f32) (b : FVec Ideal ⟨1, ![2]⟩ .f32)
    (wo : FVec Ideal ⟨2, ![2, 2]⟩ .f32) (r : Fin n) (j : Fin 2) :
    combine a x wr b wo (ix2 r j) = combineAt a x wr b wo r j := rfl

/-- A row block accumulates the same five terms in another order — both partial sums started from zero, the two
    matrix products added first, the bias last — and reaches the same extended real: the sum is commutative and
    associative and zero is neutral, infinities or not. -/
theorem accumulated_eq (a0 a1 x0 x1 b : EReal) :
    (((0 + a0) + a1) + ((0 + x0) + x1)) + b = (a0 + a1) + b + (x0 + x1) := by
  rw [zero_add, zero_add, add_right_comm]

end GraphConv

end
-- ==== Proof.BlockRows.lean ====
/-
  The idealized kernel's result array is the per-node combine of the arrays its one region reads.

  The region walks the 500000 nodes in 100 blocks of 5000 rows.  At block `t` it reads rows `5000·t … 5000·t + 4999` of
  the neighbour sums and of the node features, the two whole 2×2 weight matrices and the whole 1×2 bias row, and writes
  back rows `5000·t … 5000·t + 4999` of the result.  What it writes at row `p` of the block, feature `q`, is

      ((0 + a p 0 · wr q 0) + a p 1 · wr q 1) + ((0 + x p 0 · wo q 0) + x p 1 · wo q 1) + b q,

  which is the combine at node `5000·t + p` (the five terms added in another order).  The 100 blocks tile the result
  array, so after the run the array is the combine everywhere.
-/
import proofs.«169883_j36541581754801_1_alg».proof.Proof.Gen.KernelIdeal.Frame
import proofs.«169883_j36541581754801_1_alg».proof.Proof.Gen.KernelIdeal.Value
import proofs.«169883_j36541581754801_1_alg».proof.Proof.NodeCombine
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen Cert.KernelIdeal.Value GraphConv

variable (m : (ℓ : Loc nD τ sig) → Buf (Elt Ideal) ℓ) (ρ : Dev nD → PrngReg)

theorem hz : (![0, 0] : Fin 2 → Nat) = fun _ => 0 := funext fun a => by fin_cases a <;> rfl

/-! ## The arrays the region reads -/

/-- The neighbour sums, as the region finds them: what the host operations before it left in the array its first
    window is cut from. -/
abbrev sums (c : Dev nD) : FVec Ideal S500000x2 .f32 := V m c (Pipeline.arrRef spec0 0)
/-- The node features. -/
abbrev feats (c : Dev nD) : FVec Ideal S500000x2 .f32 := m ((c : Thread nD τ).loc main_arg0)
/-- The weights applied to the neighbour sums. -/
abbrev wRel (c : Dev nD) : FVec Ideal S2x2 .f32 := m ((c : Thread nD τ).loc main_arg2)
/-- The bias. -/
abbrev bias (c : Dev nD) : FVec Ideal S2 .f32 := m ((c : Thread nD τ).loc main_arg3)
/-- The weights applied to the node's own features. -/
abbrev wRoot (c : Dev nD) : FVec Ideal S2x2 .f32 := m ((c : Thread nD τ).loc main_arg4)

/-- The result array: the combine of the arrays above. -/
def result (c : Dev nD) : FVec Ideal S500000x2 .f32 :=
  combine (sums m c) (feats m c) (wRel m c) (bias m c) (wRoot m c)

/-- The first window's array is the buffer the scatter-add wrote. -/
theorem sums_eq (c : Dev nD) : sums m c = V m c main_v13 := by with_reducible rfl

/-- The second, third and fifth windows' arrays are arguments no host operation writes. -/
theorem featsArr_eq (c : Dev nD) : (V m c (Pipeline.arrRef spec0 1) : S500000x2.Idx → EReal) = feats m c :=
  (show V m c (Pipeline.arrRef spec0 1) = V m c main_arg0 by with_reducible rfl).trans (V_main_arg0 m c)
theorem wRelArr_eq (c : Dev nD) : (V m c (Pipeline.arrRef spec0 2) : S2x2.Idx → EReal) = wRel m c :=
  (show V m c (Pipeline.arrRef spec0 2) = V m c main_arg2 by with_reducible rfl).trans (V_main_arg2 m c)
theorem wRootArr_eq (c : Dev nD) : (V m c (Pipeline.arrRef spec0 4) : S2x2.Idx → EReal) = wRoot m c :=
  (show V m c (Pipeline.arrRef spec0 4) = V m c main_arg4 by with_reducible rfl).trans (V_main_arg4 m c)

/-- The fourth window's array is the bias laid as one row by the one host operation that writes it. -/
theorem biasArr_eq (c : Dev nD) :
    (V m c (Pipeline.arrRef spec0 3) : S1x2.Idx → EReal) = shapeCast S1x2 (bias m c) shapeCasts_S2_S1x2 := by
  refine (show V m c (Pipeline.arrRef spec0 3) = V m c main_v14 by with_reducible rfl).trans ?_
  dsimp only [Gen.V, Gen.hostOps0]; after_results; rfl

/-! ## Where each window's block sits in its array -/

/-- The printed index maps, decided over the 100 grid points: the two row-blocked inputs and the output are at block
    row `t`, the three small operands always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` of a row-blocked window is row `5000·t + p` of its array: the first input window, -/
theorem emb_rows0 (t : Fin cfg0.N) (p : Fin 5000) (k : Fin 2) (r : Fin 500000) (hr : r.val = t.val * 5000 + p.val) :
    ((cfg0.win 0).blk t).view.emb (ix2 p k) = (ix2 r k : S500000x2.Idx) := by
  obtain ⟨e0, e1, -⟩ := idx_facts t
  funext a; apply Fin.ext
  match a with
  | ⟨0, _⟩ => show win0_0.index t (0 : Fin 2) * 5000 + 1 * p.val = r.val; rw [e0, hr]; omega
  | ⟨1, _⟩ => show win0_0.index t (1 : Fin 2) * 2 + 1 * k.val = k.val; rw [e1]; omega

/-- the second input window, -/
theorem emb_rows1 (t : Fin cfg0.N) (p : Fin 5000) (k : Fin 2) (r : Fin 500000) (hr : r.val = t.val * 5000 + p.val) :
    ((cfg0.win 1).blk t).view.emb (ix2 p k) = (ix2 r k : S500000x2.Idx) := by
  obtain ⟨-, -, e0, e1, -⟩ := idx_facts t
  funext a; apply Fin.ext
  match a with
  | ⟨0, _⟩ => show win0_1.index t (0 : Fin 2) * 5000 + 1 * p.val = r.val; rw [e0, hr]; omega
  | ⟨1, _⟩ => show win0_1.index t (1 : Fin 2) * 2 + 1 * k.val = k.val; rw [e1]; omega

/-- and the output window. -/
theorem emb_rows5 (t : Fin cfg0.N) (p : Fin 5000) (k : Fin 2) (r : Fin 500000) (hr : r.val = t.val * 5000 + p.val) :
    ((cfg0.win 5).blk t).view.emb (ix2 p k) = (ix2 r k : S500000x2.Idx) := by
  obtain ⟨-, -, -, -, -, -, -, -, -, -, e0, e1⟩ := idx_facts t
  funext a; apply Fin.ext
  match a with
  | ⟨0, _⟩ => show win0_5.index t (0 : Fin 2) * 5000 + 1 * p.val = r.val; rw [e0, hr]; omega
  | ⟨1, _⟩ => show win0_5.index t (1 : Fin 2) * 2 + 1 * k.val = k.val; rw [e1]; omega

/-- The one block of each small operand is the operand: the two weight matrices -/
theorem emb_whole2 (t : Fin cfg0.N) (j k : Fin 2) : ((cfg0.win 2).blk t).view.emb (ix2 j k) = (ix2 j k : S2x2.Idx) := by
  obtain ⟨-, -, -, -, e0, e1, -⟩ := idx_facts t
  funext a; apply Fin.ext
  match a with
  | ⟨0, _⟩ => show win0_2.index t (0 : Fin 2) * 2 + 1 * j.val = j.val; rw [e0]; omega
  | ⟨1, _⟩ => show win0_2.index t (1 : Fin 2) * 2 + 1 * k.val = k.val; rw [e1]; omega

theorem emb_whole4 (t : Fin cfg0.N) (j k : Fin 2) : ((cfg0.win 4).blk t).view.emb (ix2 j k) = (ix2 j k : S2x2.Idx) := by
  obtain ⟨-, -, -, -, -, -, -, -, e0, e1, -⟩ := idx_facts t
  funext a; apply Fin.ext
  match a with
  | ⟨0, _⟩ => show win0_4.index t (0 : Fin 2) * 2 + 1 * j.val = j.val; rw [e0]; omega
  | ⟨1, _⟩ => show win0_4.index t (1 : Fin 2) * 2 + 1 * k.val = k.val; rw [e1]; omega

/-- and the bias row. -/
theorem emb_whole3 (t : Fin cfg0.N) (u : Fin 1) (q : Fin 2) : ((cfg0.win 3).blk t).view.emb (ix2 u q) = (ix2 u q : S1x2.Idx) := by
  obtain ⟨-, -, -, -, -, -, e0, e1, -⟩ := idx_facts t
  funext a; apply Fin.ext
  match a with
  | ⟨0, _⟩ => show win0_3.index t (0 : Fin 2) * 1 + 1 * u.val = u.val; rw [e0]; omega
  | ⟨1, _⟩ => show win0_3.index t (1 : Fin 2) * 2 + 1 * q.val = q.val; rw [e1]; omega

/-- A block of a window read at an index is its array at the index the block's embedding sends it to; with the
    embeddings above, for ANY contents `A` of the array: the two row-blocked inputs, -/
theorem read_rows0 (A : S500000x2.Idx → EReal) (t : Fin cfg0.N) (p : Fin 5000) (k : Fin 2) (r : Fin 500000) (hr : r.val = t.val * 5000 + p.val) :
    (((cfg0.win 0).blk t).view.read (Elt Ideal) A : Vec Ideal S5000x2 .f32) (ix2 p k) = A (ix2 r k) := by
  rw [View.read_apply]
  exact congrArg A (emb_rows0 t p k r hr)

theorem read_rows1 (A : S500000x2.Idx → EReal) (t : Fin cfg0.N) (p : Fin 5000) (k : Fin 2) (r : Fin 500000) (hr : r.val = t.val * 5000 + p.val) :
    (((cfg0.win 1).blk t).view.read (Elt Ideal) A : Vec Ideal S5000x2 .f32) (ix2 p k) = A (ix2 r k) := by
  rw [View.read_apply]
  exact congrArg A (emb_rows1 t p k r hr)

/-- the two weight matrices, -/
theorem read_whole2 (A : S2x2.Idx → EReal) (t : Fin cfg0.N) (j k : Fin 2) :
    (((cfg0.win 2).blk t).view.read (Elt Ideal) A : Vec Ideal S2x2 .f32) (ix2 j k) = A (ix2 j k) := by
  rw [View.read_apply]
  exact congrArg A (emb_whole2 t j k)

theorem read_whole4 (A : S2x2.Idx → EReal) (t : Fin cfg0.N) (j k : Fin 2) :
    (((cfg0.win 4).blk t).view.read (Elt Ideal) A : Vec Ideal S2x2 .f32) (ix2 j k) = A (ix2 j k) := by
  rw [View.read_apply]
  exact congrArg A (emb_whole4 t j k)

/-- and the bias row. -/
theorem read_whole3 (A : S1x2.Idx → EReal) (t : Fin cfg0.N) (u : Fin 1) (q : Fin 2) :
    (((cfg0.win 3).blk t).view.read (Elt Ideal) A : Vec Ideal S1x2 .f32) (ix2 u q) = A (ix2 u q) := by
  rw [View.read_apply]
  exact congrArg A (emb_whole3 t u q)

/-! ## What one block's computation leaves -/

/-- The block the body leaves, at row `p`, feature `q`, from the five blocks it read: the generated reading of the
    body's slices, casts and broadcasts gives the five terms, and the order they are added in does not matter. -/
theorem block_value (a x : Vec Ideal S5000x2 .f32) (wr : Vec Ideal S2x2 .f32) (b : Vec Ideal S1x2 .f32) (wo : Vec Ideal S2x2 .f32)
    (p : Fin 5000) (q : Fin 2) :
    out0_5 a x wr b wo (ix2 p q)
      = (a (ix2 p 0) * wr (ix2 q 0) + a (ix2 p 1) * wr (ix2 q 1)) + b (ix2 (0 : Fin 1) q)
          + (x (ix2 p 0) * wo (ix2 q 0) + x (ix2 p 1) * wo (ix2 q 1)) := by
  unfold out0_5
  refine (canon5_eq _ _ _ _ _ (ix2 p q)).trans ?_
  simp only [View.ld_unit_zero (S := S5000x2) hz, View.ld_unit_zero (S := S2x2) hz, View.ld_unit_zero (S := S1x2) hz]
  have i0 : ix5_0 (ix2 p q) = ix2 p (0 : Fin 2) := funext fun d => match d with | ⟨0, _⟩ => rfl | ⟨1, _⟩ => rfl
  have i1 : ix5_1 (ix2 p q) = ix2 q (0 : Fin 2) := funext fun d => match d with | ⟨0, _⟩ => rfl | ⟨1, _⟩ => rfl
  have i2 : ix5_2 (ix2 p q) = ix2 p (1 : Fin 2) := funext fun d => match d with | ⟨0, _⟩ => rfl | ⟨1, _⟩ => rfl
  have i3 : ix5_3 (ix2 p q) = ix2 q (1 : Fin 2) := funext fun d => match d with | ⟨0, _⟩ => rfl | ⟨1, _⟩ => rfl
  have i4 : ix5_4 (ix2 p q) = ix2 p (0 : Fin 2) := funext fun d => match d with | ⟨0, _⟩ => rfl | ⟨1, _⟩ => rfl
  have i5 : ix5_5 (ix2 p q) = ix2 q (0 : Fin 2) := funext fun d => match d with | ⟨0, _⟩ => rfl | ⟨1, _⟩ => rfl
  have i6 : ix5_6 (ix2 p q) = ix2 p (1 : Fin 2) := funext fun d => match d with | ⟨0, _⟩ => rfl | ⟨1, _⟩ => rfl
  have i7 : ix5_7 (ix2 p q) = ix2 q (1 : Fin 2) := funext fun d => match d with | ⟨0, _⟩ => rfl | ⟨1, _⟩ => rfl
  have i8 : ix5_8 (ix2 p q) = ix2 (0 : Fin 1) q := funext fun d => match d with | ⟨0, _⟩ => rfl | ⟨1, _⟩ => rfl
  show ((((Ideal.ofBits .f32 0x00000000#32 : EReal) + a (ix5_0 (ix2 p q)) * wr (ix5_1 (ix2 p q))) + a (ix5_2 (ix2 p q)) * wr (ix5_3 (ix2 p q)))
      + (((Ideal.ofBits .f32 0x00000000#32 : EReal) + x (ix5_4 (ix2 p q)) * wo (ix5_5 (ix2 p q))) + x (ix5_6 (ix2 p q)) * wo (ix5_7 (ix2 p q))))
      + b (ix5_8 (ix2 p q)) = _
  rw [i0, i1, i2, i3, i4, i5, i6, i7, i8, Ideal.ofBits_zero_f32]
  exact accumulated_eq _ _ _ _ _

/-! ## What a point writes back, and the array after the run -/

/-- The staging block a point writes back is the whole block the body left (the output's blocks tile its array, so
    nothing is clipped). -/
theorem cut5_apply (t : Fin cfg0.N) (Y : S5000x2.Idx → EReal) (p : Fin 5000) (q : Fin 2) :
    (cfg0.win 5).cut (grid0.coords t) Y (ix2 p q) = Y (ix2 p q) := rfl

/-- For ANY contents of the five arrays the windows are cut from — with the 1×2 row `br` holding the bias `b` — the
    block the body leaves at point `t` from the five blocks at `t` is block `t` of the combine of the arrays:
    row `p` of the block is node `5000·t + p`. -/
theorem written_block (a x : S500000x2.Idx → EReal) (wr : S2x2.Idx → EReal) (br : S1x2.Idx → EReal) (wo : S2x2.Idx → EReal)
    (b : S2.Idx → EReal) (hb : ∀ q : Fin 2, br (ix2 (0 : Fin 1) q) = b (ix1 q)) (t : Fin cfg0.N) :
    (cfg0.win 5).cut (grid0.coords t)
        (out0_5 (((cfg0.win 0).blk t).view.read (Elt Ideal) a) (((cfg0.win 1).blk t).view.read (Elt Ideal) x)
          (((cfg0.win 2).blk t).view.read (Elt Ideal) wr) (((cfg0.win 3).blk t).view.read (Elt Ideal) br)
          (((cfg0.win 4).blk t).view.read (Elt Ideal) wo))
      = ((cfg0.win 5).blk t).view.read (Elt Ideal) (combine a x wr b wo) := by
  funext j
  obtain ⟨p, q, rfl⟩ : ∃ (p : Fin 5000) (q : Fin 2), j = ix2 p q := ⟨j 0, j 1, eq_ix2 j⟩
  have ht : t.val < 100 := by have h := t.isLt; have hN : cfg0.N = 100 := N_0; omega
  have hr : t.val * 5000 + p.val < 500000 := by have := p.isLt; omega
  rw [View.read_apply, emb_rows5 t p q ⟨t.val * 5000 + p.val, hr⟩ rfl, cut5_apply, block_value,
    read_rows0 a t p 0 ⟨t.val * 5000 + p.val, hr⟩ rfl, read_rows0 a t p 1 ⟨t.val * 5000 + p.val, hr⟩ rfl,
    read_rows1 x t p 0 ⟨t.val * 5000 + p.val, hr⟩ rfl, read_rows1 x t p 1 ⟨t.val * 5000 + p.val, hr⟩ rfl,
    read_whole2 wr t q 0, read_whole2 wr t q 1, read_whole4 wo t q 0, read_whole4 wo t q 1,
    read_whole3 br t 0 q, hb q, combine_apply]
  rfl

/-- The combine of the windows' arrays as the region finds them is `result`: three of them are arguments no host
    operation writes. -/
theorem result_of_arrays (c : Dev nD) :
    combine (sums m c) (V m c (Pipeline.arrRef spec0 1)) (V m c (Pipeline.arrRef spec0 2)) (bias m c) (V m c (Pipeline.arrRef spec0 4))
      = result m c := by
  unfold result
  rw [featsArr_eq, wRelArr_eq, wRootArr_eq]

/-- WHAT POINT `t` WRITES BACK is block `t` of the combine of the arrays the region reads. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  rw [← result_of_arrays]
  exact written_block (sums m c) (V m c (Pipeline.arrRef spec0 1)) (V m c (Pipeline.arrRef spec0 2))
    (V m c (Pipeline.arrRef spec0 3)) (V m c (Pipeline.arrRef spec0 4)) (bias m c)
    (fun q => (congrFun (biasArr_eq m c) _).trans (shapeCast_a_1a_apply _ _ (0 : Fin 1) q)) t

/-- An index of the result array is in point `t`'s block iff each coordinate is in the block's range on its axis. -/
theorem mem_blk (t : Fin cfg0.N) (i : S500000x2.Idx) :
    i ∈ ((cfg0.win 5).blk t).view.set ↔ ∀ a : Fin 2, win0_5.index t a * S5000x2.size a ≤ (i a).val ∧ (i a).val < win0_5.index t a * S5000x2.size a + S5000x2.size a := by
  show i ∈ ((View.whole main_v15).slice (win0_5.rect t)).set ↔ _
  rw [View.set_slice_whole, Rect.mem_set_unit]
  exact Iff.rfl

/-- Every node's row is in some point's block: node `r` is in block `r / 5000`. -/
theorem covered (i : S500000x2.Idx) : ∃ t : Fin cfg0.N, (cfg0.win 5).flush t = true ∧ i ∈ ((cfg0.win 5).blk t).view.set := by
  have hi0 : (i 0).val < 500000 := (i 0).isLt
  have hi1 : (i 1).val < 2 := (i 1).isLt
  have hN : cfg0.N = 100 := N_0
  let t : Fin cfg0.N := ⟨(i 0).val / 5000, by rw [hN]; omega⟩
  obtain ⟨-, -, -, -, -, -, -, -, -, -, e0, e1⟩ := idx_facts t
  have e0' : win0_5.index t (0 : Fin 2) = (i 0).val / 5000 := e0
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 2 ≤ (i 1).val ∧ (i 1).val < win0_5.index t (1 : Fin 2) * 2 + 2; rw [e1]; omega

/-- THE ARRAY after the run is the combine. -/
theorem final (c : Dev nD) : (dats m 0 c).arrAt 5 cfg0.N = result m c :=
  (dats m 0 c).arrAt_eq_of_cover 5 (result m c) (fun t _ => flushed_eq m c t) covered

/-- The run, read: the result array at the combine of the arrays the region reads, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Combine

end
-- ==== Proof.ReferenceCombine.lean ====
/-
  The idealized reference's result array is the per-node combine of its arrays.

  The reference forms the neighbour sums `s` by the same gather and scatter-add, then computes
  `(s · wrᵀ + b) + x · woᵀ` with two matrix products of contraction length 2.  On the extended reals a product of
  contraction length 2 is the sum of its two terms, a transposed matrix read at `(k, j)` is the matrix at `(j, k)`, and
  the bias spread over the rows read at `(r, j)` is `b j`: index by index this is the combine, with no regrouping at all.
-/
import proofs.«169883_j36541581754801_1_alg».proof.Proof.Gen.ReferenceIdeal.Run
import proofs.«169883_j36541581754801_1_alg».proof.Proof.Gen.ReferenceIdeal.Read
import proofs.«169883_j36541581754801_1_alg».proof.Proof.NodeCombine
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Combine

open Cert.ReferenceIdeal Cert.ReferenceIdeal.Read GraphConv

/-- The reference's result, as a function of its five arguments, is the combine of the neighbour sums it forms
    (`val_main_v13`: the gather and scatter-add, never opened) with the other four. -/
theorem result_eq (x0 : FVec Ideal S500000x2 .f32) (x1 : IVec S2x16000000 32) (x2 : FVec Ideal S2x2 .f32)
    (x3 : FVec Ideal S2 .f32) (x4 : FVec Ideal S2x2 .f32) :
    val_main_v21 (F := Ideal) x0 x1 x2 x3 x4 = combine (val_main_v13 (F := Ideal) x0 x1) x0 x2 x3 x4 := by
  funext i
  obtain ⟨r, j, rfl⟩ : ∃ (r : Fin 500000) (j : Fin 2), i = ix2 r j := ⟨i 0, i 1, eq_ix2 i⟩
  have l15 : ∀ k : Fin 2, lidx_main_v15 (ix2 r j) k = ix2 r k := fun k => funext fun a => match a with | ⟨0, _⟩ => rfl | ⟨1, _⟩ => rfl
  have r15 : ∀ k : Fin 2, idx_main_v14 (ridx_main_v15 (ix2 r j) k) = ix2 j k := fun k => funext fun a => match a with | ⟨0, _⟩ => rfl | ⟨1, _⟩ => rfl
  have l20 : ∀ k : Fin 2, lidx_main_v20 (ix2 r j) k = ix2 r k := fun k => funext fun a => match a with | ⟨0, _⟩ => rfl | ⟨1, _⟩ => rfl
  have r20 : ∀ k : Fin 2, idx_main_v19 (ridx_main_v20 (ix2 r j) k) = ix2 j k := fun k => funext fun a => match a with | ⟨0, _⟩ => rfl | ⟨1, _⟩ => rfl
  have b17 : idx_main_v16 (idx_main_v17 (ix2 r j)) = ix1 j := funext fun a => match a with | ⟨0, _⟩ => rfl
  rw [val_main_v21_apply, val_main_v18_apply, val_main_v15_apply, val_main_v17_apply, val_main_v16_apply, val_main_v20_apply,
    Fin.sum_univ_two, Fin.sum_univ_two]
  simp only [val_main_v14_apply, val_main_v19_apply, l15, r15, l20, r20, b17, Ideal.addf_def]
  rfl

end Cert.ReferenceIdeal.Combine

end
-- ==== Proof.lean ====
/-
  A graph convolution with sum aggregation: the neighbour sums are formed by a gather of the source rows and a
  scatter-add into the destination rows — the same host operations, in the same order, in the kernel's program and in
  the reference —, and then every node combines its neighbour sum `s`, its own features `x`, two 2×2 weight matrices
  and a bias:  out = s · wrᵀ + b + x · woᵀ.

  The kernel's one region does the combine in blocks of 5000 nodes, each product written out over the two input
  features and the five terms added in its own order; the reference uses two matrix products of contraction length 2.
  On the extended reals both are the same function of the same arrays, index by index: only commutativity and
  associativity of the sum and `0 + y = y` join them, so the precondition is never opened.

  `NodeCombine` states that function; `BlockRows` shows the kernel's result array is it (each block written back is
  its block of rows, and the 100 blocks tile the array); `ReferenceCombine` shows the reference's result is it.  Here
  the neighbour sums of the two programs are identified and the five claims assembled: the three frames (the kernel's
  two from the generated frame certificates, the reference's from its run), the idealization, whose ledger is empty,
  and the equality of results.
-/
import proofs.«169883_j36541581754801_1_alg».proof.Defs
import proofs.«169883_j36541581754801_1_alg».proof.Proof.Gen.Kernel
import proofs.«169883_j36541581754801_1_alg».proof.Proof.Gen.Kernel.Skeleton
import proofs.«169883_j36541581754801_1_alg».proof.Proof.Gen.Kernel.Launch
import proofs.«169883_j36541581754801_1_alg».proof.Proof.Gen.Kernel.Points
import proofs.«169883_j36541581754801_1_alg».proof.Proof.Gen.Kernel.Frame
import proofs.«169883_j36541581754801_1_alg».proof.Proof.Gen.KernelIdeal
import proofs.«169883_j36541581754801_1_alg».proof.Proof.Gen.KernelIdeal.Skeleton
import proofs.«169883_j36541581754801_1_alg».proof.Proof.Gen.KernelIdeal.Launch
import proofs.«169883_j36541581754801_1_alg».proof.Proof.Gen.KernelIdeal.Points
import proofs.«169883_j36541581754801_1_alg».proof.Proof.Gen.KernelIdeal.Frame
import proofs.«169883_j36541581754801_1_alg».proof.Proof.Gen.ReferenceIdeal
import proofs.«169883_j36541581754801_1_alg».proof.Proof.Gen.Pre_finite_inputs
import proofs.«169883_j36541581754801_1_alg».proof.Proof.Gen.KernelIdeal.Value
import proofs.«169883_j36541581754801_1_alg».proof.Proof.Gen.ReferenceIdeal.Run
import proofs.«169883_j36541581754801_1_alg».proof.Proof.Gen.ReferenceIdeal.Read
import proofs.«169883_j36541581754801_1_alg».proof.Proof.NodeCombine
import proofs.«169883_j36541581754801_1_alg».proof.Proof.BlockRows
import proofs.«169883_j36541581754801_1_alg».proof.Proof.ReferenceCombine
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The neighbour sums the kernel's region finds are the reference's: both programs apply the same gather and
    scatter-add (and the same index preparation before them) to the node features and the edge list, so the buffer
    the kernel's host operations leave is the reference's stage of the same two arguments, term for term. -/
theorem sums_agree (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v13 : Cert.KernelIdeal.S500000x2.Idx → EReal)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]; after_results; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both programs end with the combine of the same five arrays: the kernel's result array by its blocks of rows, the
    reference's by its two short matrix products, the neighbour sums being one term in both. -/
theorem algebraic : Cert.algebraic_KernelIdeal_ReferenceIdeal := by
  intro m ρ m' ρ' _ hagree
  refine ⟨fun c => Cert.KernelIdeal.Combine.result m c, Cert.KernelIdeal.Combine.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v21_eq, Cert.ReferenceIdeal.Combine.result_eq, h0, h1, h2, h3, h4]
  show _ = Cert.KernelIdeal.Combine.result m c
  unfold Cert.KernelIdeal.Combine.result
  rw [Cert.KernelIdeal.Combine.sums_eq, sums_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
